-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2304x512 : Shape := ⟨3, ![4, 2304, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S4x2304x512 : S_.BroadcastsInDim S4x2304x512 (![] : Fin 0 → Fin S4x2304x512.rank)
  reducesTo_S4x2304x512_S_d0_1_2 : S4x2304x512.ReducesTo [0, 1, 2] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S4x2304x512 .f32) (main_arg1 : FVec F S1536x512 .f32) (main_arg2 : FVec F S1536 .f32) (main_arg3 : FVec F S512x512 .f32) (main_arg4 : FVec F S512 .f32) : IVec S_ 1 :=
  let main_v0 : FVec F S4x2304x512 .f32 := Host.absf main_arg0
  let main_cst : FVec F S_ .f32 := constant S_ .f32 0x7F800000#32
  let main_v1 : FVec F S4x2304x512 .f32 := broadcastInDim S4x2304x512 ![] bcast_S_S4x2304x512 main_cst
  let main_v2 : IVec S4x2304x512 1 := cmpf .olt main_v0 main_v1
  let main_c : IVec S_ 1 := constantI S_ 1 1#1
  let main_v3 : IVec S_ 1 := (fun x v => Host.reduce IntOp.andi x v reducesTo_S4x2304x512_S_d0_1_2 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Kernel.lean ====
abbrev S4x2304x512 : Shape := ⟨3, ![4, 2304, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S9216x512 : Shape := ⟨2, ![9216, 512]⟩
abbrev S9216x1536 : Shape := ⟨2, ![9216, 1536]⟩
abbrev S512x1536 : Shape := ⟨2, ![512, 1536]⟩
abbrev S1x1536 : Shape := ⟨2, ![1, 1536]⟩
abbrev S4x2304x1536 : Shape := ⟨3, ![4, 2304, 1536]⟩
abbrev S4x768x1536 : Shape := ⟨3, ![4, 768, 1536]⟩
abbrev S4x2304x8x64 : Shape := ⟨4, ![4, 2304, 8, 64]⟩
abbrev S4x8x2304x64 : Shape := ⟨4, ![4, 8, 2304, 64]⟩
abbrev S32x2304x64 : Shape := ⟨3, ![32, 2304, 64]⟩
abbrev S1x768x64 : Shape := ⟨3, ![1, 768, 64]⟩
abbrev S1x2304x64 : Shape := ⟨3, ![1, 2304, 64]⟩
abbrev S768x64 : Shape := ⟨2, ![768, 64]⟩
abbrev S2304x64 : Shape := ⟨2, ![2304, 64]⟩
abbrev S768x2304 : Shape := ⟨2, ![768, 2304]⟩
abbrev S1x512 : Shape := ⟨2, ![1, 512]⟩

abbrev nBuf : Space → Nat
  | .hbm => 26
  | .vmem => 20
  | .smem => 0
  | _ => 0

abbrev bufTy : (tb : Table) → Fin (tcTables nBuf tb) → BufTy
  | .hbm, ⟨0, _⟩ => ⟨S4x2304x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S9216x512, .f32⟩
  | .hbm, ⟨6, _⟩ => ⟨S9216x1536, .bf16⟩
  | .hbm, ⟨7, _⟩ => ⟨S4x2304x1536, .bf16⟩
  | .hbm, ⟨8, _⟩ => ⟨S4x768x1536, .bf16⟩
  | .hbm, ⟨9, _⟩ => ⟨S4x768x1536, .bf16⟩
  | .hbm, ⟨10, _⟩ => ⟨S4x768x1536, .bf16⟩
  | .hbm, ⟨11, _⟩ => ⟨S4x2304x8x64, .bf16⟩
  | .hbm, ⟨12, _⟩ => ⟨S4x8x2304x64, .bf16⟩
  | .hbm, ⟨13, _⟩ => ⟨S32x2304x64, .bf16⟩
  | .hbm, ⟨14, _⟩ => ⟨S4x2304x8x64, .bf16⟩
  | .hbm, ⟨15, _⟩ => ⟨S4x8x2304x64, .bf16⟩
  | .hbm, ⟨16, _⟩ => ⟨S32x2304x64, .bf16⟩
  | .hbm, ⟨17, _⟩ => ⟨S4x2304x8x64, .bf16⟩
  | .hbm, ⟨18, _⟩ => ⟨S4x8x2304x64, .bf16⟩
  | .hbm, ⟨19, _⟩ => ⟨S32x2304x64, .bf16⟩
  | .hbm, ⟨20, _⟩ => ⟨S32x2304x64, .bf16⟩
  | .hbm, ⟨21, _⟩ => ⟨S4x8x2304x64, .bf16⟩
  | .hbm, ⟨22, _⟩ => ⟨S4x2304x8x64, .bf16⟩
  | .hbm, ⟨23, _⟩ => ⟨S9216x512, .bf16⟩
  | .hbm, ⟨24, _⟩ => ⟨S9216x512, .f32⟩
  | .hbm, ⟨25, _⟩ => ⟨S4x2304x512, .f32⟩
  | .local _ .vmem, ⟨0, _⟩ => ⟨S512x512, .f32⟩
  | .local _ .vmem, ⟨1, _⟩ => ⟨S512x512, .f32⟩
  | .local _ .vmem, ⟨2, _⟩ => ⟨S1536x512, .f32⟩
  | .local _ .vmem, ⟨3, _⟩ => ⟨S1536, .f32⟩
  | .local _ .vmem, ⟨4, _⟩ => ⟨S512x1536, .bf16⟩
  | .local _ .vmem, ⟨5, _⟩ => ⟨S512x1536, .bf16⟩
  | .local _ .vmem, ⟨6, _⟩ => ⟨S1x768x64, .bf16⟩
  | .local _ .vmem, ⟨7, _⟩ => ⟨S1x768x64, .bf16⟩
  | .local _ .vmem, ⟨8, _⟩ => ⟨S1x2304x64, .bf16⟩
  | .local _ .vmem, ⟨9, _⟩ => ⟨S1x2304x64, .bf16⟩
  | .local _ .vmem, ⟨10, _⟩ => ⟨S1x2304x64, .bf16⟩
  | .local _ .vmem, ⟨11, _⟩ => ⟨S1x2304x64, .bf16⟩
  | .local _ .vmem, ⟨12, _⟩ => ⟨S1x768x64, .bf16⟩
  | .local _ .vmem, ⟨13, _⟩ => ⟨S1x768x64, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512, .f32⟩
  | .local _ .vmem, ⟨18, _⟩ => ⟨S512x512, .f32⟩
  | .local _ .vmem, ⟨19, _⟩ => ⟨S512x512, .f32⟩
  | _, _ => ⟨S4x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 3], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x768x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2304x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2304x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x768x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![18], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2304x512_S9216x512 : S4x2304x512.ShapeCasts S9216x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1536x512_S1536x512_0_0 : ∀ a, (![0, 0] : Fin 2 → Nat) a + S1536x512.size a ≤ S1536x512.size a
  h_S1536x512 : 0 < S1536x512.numel
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S512x1536 : S1x1536.Broadcasts S512x1536
  inb_S512x1536_S512x1536_0_0 : ∀ a, (![0, 0] : Fin 2 → Nat) a + S512x1536.size a ≤ S512x1536.size a
  h_S512x1536 : 0 < S512x1536.numel
  packedbf16_S512x1536_S512x1536_0_0 : (Rect.unit (s := S512x1536) ![0, 0] S512x1536.size inb_S512x1536_S512x1536_0_0).PackedRows (EltTy.packing .bf16)
  shapeCasts_S9216x1536_S4x2304x1536 : S9216x1536.ShapeCasts S4x2304x1536
  slices_S4x2304x1536_S4x768x1536_0_0_0 : S4x2304x1536.Slices ![0, 0, 0] S4x768x1536
  slices_S4x2304x1536_S4x768x1536_0_768_0 : S4x2304x1536.Slices ![0, 768, 0] S4x768x1536
  slices_S4x2304x1536_S4x768x1536_0_1536_0 : S4x2304x1536.Slices ![0, 1536, 0] S4x768x1536
  shapeCasts_S4x768x1536_S4x2304x8x64 : S4x768x1536.ShapeCasts S4x2304x8x64
  transposes_S4x2304x8x64_S4x8x2304x64_0_2_1_3 : S4x2304x8x64.Transposes [0, 2, 1, 3] S4x8x2304x64
  shapeCasts_S4x8x2304x64_S32x2304x64 : S4x8x2304x64.ShapeCasts S32x2304x64
  inb_S1x768x64_S1x768x64_0_0_0 : ∀ a, (![0, 0, 0] : Fin 3 → Nat) a + S1x768x64.size a ≤ S1x768x64.size a
  h_S1x768x64 : 0 < S1x768x64.numel
  shapeCasts_S1x768x64_S768x64 : S1x768x64.ShapeCasts S768x64
  inb_S1x2304x64_S1x2304x64_0_0_0 : ∀ a, (![0, 0, 0] : Fin 3 → Nat) a + S1x2304x64.size a ≤ S1x2304x64.size a
  h_S1x2304x64 : 0 < S1x2304x64.numel
  shapeCasts_S1x2304x64_S2304x64 : S1x2304x64.ShapeCasts S2304x64
  shapeCasts_S768x64_S1x768x64 : S768x64.ShapeCasts S1x768x64
  packedbf16_S1x768x64_S1x768x64_0_0_0 : (Rect.unit (s := S1x768x64) ![0, 0, 0] S1x768x64.size inb_S1x768x64_S1x768x64_0_0_0).PackedRows (EltTy.packing .bf16)
  shapeCasts_S32x2304x64_S4x8x2304x64 : S32x2304x64.ShapeCasts S4x8x2304x64
  transposes_S4x8x2304x64_S4x2304x8x64_0_2_1_3 : S4x8x2304x64.Transposes [0, 2, 1, 3] S4x2304x8x64
  shapeCasts_S4x2304x8x64_S9216x512 : S4x2304x8x64.ShapeCasts S9216x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S9216x512_S4x2304x512 : S9216x512.ShapeCasts S4x2304x512
  dot_S512x512_S1536x512_S512x1536_1_1_0_0_n_n_wf : DotDims.WF S512x512 S1536x512 S512x1536 [1] [1] [0] [0] [] []
  dot_S768x64_S2304x64_S768x2304_1_1_0_0_n_n_wf : DotDims.WF S768x64 S2304x64 S768x2304 [1] [1] [0] [0] [] []
  dot_S768x2304_S2304x64_S768x64_1_0_0_1_n_n_wf : DotDims.WF S768x2304 S2304x64 S768x64 [1] [0] [0] [1] [] []
  dot_S512x512_S512x512_S512x512_1_1_0_0_n_n_wf : DotDims.WF S512x512 S512x512 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S9216x512.size a
  hwx0_0 : ∀ i : grid0.Coords, EltTy.bits .f32 = 32 ∨ (Rect.block (s := S9216x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x512.size a ≤ S1536x512.size a
  hwx0_1 : ∀ i : grid0.Coords, EltTy.bits .f32 = 32 ∨ (Rect.block (s := S1536x512) S1536x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S9216x1536.size a
  hwx0_3 : ∀ i : grid0.Coords, EltTy.bits .bf16 = 32 ∨ (Rect.block (s := S9216x1536) S512x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x768x64.size a ≤ S32x2304x64.size a
  hwx1_0 : ∀ i : grid1.Coords, EltTy.bits .bf16 = 32 ∨ (Rect.block (s := S32x2304x64) S1x768x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2304x64.size a ≤ S32x2304x64.size a
  hwx1_1 : ∀ i : grid1.Coords, EltTy.bits .bf16 = 32 ∨ (Rect.block (s := S32x2304x64) S1x2304x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2304x64.size a ≤ S32x2304x64.size a
  hwx1_2 : ∀ i : grid1.Coords, EltTy.bits .bf16 = 32 ∨ (Rect.block (s := S32x2304x64) S1x2304x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x768x64.size a ≤ S32x2304x64.size a
  hwx1_3 : ∀ i : grid1.Coords, EltTy.bits .bf16 = 32 ∨ (Rect.block (s := S32x2304x64) S1x768x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S9216x512.size a
  hwx2_0 : ∀ i : grid2.Coords, EltTy.bits .bf16 = 32 ∨ (Rect.block (s := S9216x512) S512x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S9216x512.size a
  hwx2_3 : ∀ i : grid2.Coords, EltTy.bits .f32 = 32 ∨ (Rect.block (s := S9216x512) S512x512.size (cc2_transform_3 i) (hinb2_3 i)).WholeWords (EltTy.packing .f32)

variable [Facts₀]

def dot_S512x512_S1536x512_S512x1536_1_1_0_0_n_n : DotDims S512x512 S1536x512 S512x1536 where
  lhsContracting := [1]
  rhsContracting := [1]
  lhsNonContracting := [0]
  rhsNonContracting := [0]
  lhsBatch := []
  rhsBatch := []
  wf := dot_S512x512_S1536x512_S512x1536_1_1_0_0_n_n_wf
def dot_S768x64_S2304x64_S768x2304_1_1_0_0_n_n : DotDims S768x64 S2304x64 S768x2304 where
  lhsContracting := [1]
  rhsContracting := [1]
  lhsNonContracting := [0]
  rhsNonContracting := [0]
  lhsBatch := []
  rhsBatch := []
  wf := dot_S768x64_S2304x64_S768x2304_1_1_0_0_n_n_wf
def dot_S768x2304_S2304x64_S768x64_1_0_0_1_n_n : DotDims S768x2304 S2304x64 S768x64 where
  lhsContracting := [1]
  rhsContracting := [0]
  lhsNonContracting := [0]
  rhsNonContracting := [1]
  lhsBatch := []
  rhsBatch := []
  wf := dot_S768x2304_S2304x64_S768x64_1_0_0_1_n_n_wf
def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1536x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x768x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x2304x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2304x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x768x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v18) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2304x512 : Shape := ⟨3, ![4, 2304, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S4x2304x1536 : Shape := ⟨3, ![4, 2304, 1536]⟩
abbrev S1x1x1536 : Shape := ⟨3, ![1, 1, 1536]⟩
abbrev S4x768x1536 : Shape := ⟨3, ![4, 768, 1536]⟩
abbrev S4x2304x8x64 : Shape := ⟨4, ![4, 2304, 8, 64]⟩
abbrev S4x8x2304x64 : Shape := ⟨4, ![4, 8, 2304, 64]⟩
abbrev S4x8x2304x2304 : Shape := ⟨4, ![4, 8, 2304, 2304]⟩
abbrev S_ : Shape := ⟨0, ![]⟩
abbrev S1x1x512 : Shape := ⟨3, ![1, 1, 512]⟩

abbrev nBuf : Space → Nat
  | .hbm => 29
  | .vmem => 0
  | .smem => 0
  | _ => 0

abbrev bufTy : (tb : Table) → Fin (tcTables nBuf tb) → BufTy
  | .hbm, ⟨0, _⟩ => ⟨S4x2304x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S4x2304x1536, .f32⟩
  | .hbm, ⟨6, _⟩ => ⟨S1x1x1536, .f32⟩
  | .hbm, ⟨7, _⟩ => ⟨S4x2304x1536, .f32⟩
  | .hbm, ⟨8, _⟩ => ⟨S4x2304x1536, .f32⟩
  | .hbm, ⟨9, _⟩ => ⟨S4x768x1536, .f32⟩
  | .hbm, ⟨10, _⟩ => ⟨S4x768x1536, .f32⟩
  | .hbm, ⟨11, _⟩ => ⟨S4x768x1536, .f32⟩
  | .hbm, ⟨12, _⟩ => ⟨S4x2304x8x64, .f32⟩
  | .hbm, ⟨13, _⟩ => ⟨S4x8x2304x64, .f32⟩
  | .hbm, ⟨14, _⟩ => ⟨S4x2304x8x64, .f32⟩
  | .hbm, ⟨15, _⟩ => ⟨S4x8x2304x64, .f32⟩
  | .hbm, ⟨16, _⟩ => ⟨S4x2304x8x64, .f32⟩
  | .hbm, ⟨17, _⟩ => ⟨S4x8x2304x64, .f32⟩
  | .hbm, ⟨18, _⟩ => ⟨S4x8x2304x2304, .f32⟩
  | .hbm, ⟨19, _⟩ => ⟨S_, .f32⟩
  | .hbm, ⟨20, _⟩ => ⟨S4x8x2304x2304, .f32⟩
  | .hbm, ⟨21, _⟩ => ⟨S4x8x2304x2304, .f32⟩
  | .hbm, ⟨22, _⟩ => ⟨S4x8x2304x64, .f32⟩
  | .hbm, ⟨23, _⟩ => ⟨S4x2304x8x64, .f32⟩
  | .hbm, ⟨24, _⟩ => ⟨S4x2304x512, .f32⟩
  | .hbm, ⟨25, _⟩ => ⟨S4x2304x512, .f32⟩
  | .hbm, ⟨26, _⟩ => ⟨S1x1x512, .f32⟩
  | .hbm, ⟨27, _⟩ => ⟨S4x2304x512, .f32⟩
  | .hbm, ⟨28, _⟩ => ⟨S4x2304x512, .f32⟩
  | _, _ => ⟨S4x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S4x2304x1536_0_1_2 : S1x1x1536.BroadcastsInDim S4x2304x1536 (![0, 1, 2] : Fin 3 → Fin S4x2304x1536.rank)
  slices_S4x2304x1536_S4x768x1536_0_0_0 : S4x2304x1536.Slices ![0, 0, 0] S4x768x1536
  slices_S4x2304x1536_S4x768x1536_0_768_0 : S4x2304x1536.Slices ![0, 768, 0] S4x768x1536
  slices_S4x2304x1536_S4x768x1536_0_1536_0 : S4x2304x1536.Slices ![0, 1536, 0] S4x768x1536
  shapeCasts_S4x768x1536_S4x2304x8x64 : S4x768x1536.ShapeCasts S4x2304x8x64
  transposes_S4x2304x8x64_S4x8x2304x64_0_2_1_3 : S4x2304x8x64.Transposes [0, 2, 1, 3] S4x8x2304x64
  bcast_S_S4x8x2304x2304 : S_.BroadcastsInDim S4x8x2304x2304 (![] : Fin 0 → Fin S4x8x2304x2304.rank)
  transposes_S4x8x2304x64_S4x2304x8x64_0_2_1_3 : S4x8x2304x64.Transposes [0, 2, 1, 3] S4x2304x8x64
  shapeCasts_S4x2304x8x64_S4x2304x512 : S4x2304x8x64.ShapeCasts S4x2304x512
  bcast_S512_S1x1x512_2 : S512.BroadcastsInDim S1x1x512 (![2] : Fin 1 → Fin S1x1x512.rank)
  bcast_S1x1x512_S4x2304x512_0_1_2 : S1x1x512.BroadcastsInDim S4x2304x512 (![0, 1, 2] : Fin 3 → Fin S4x2304x512.rank)
  dot_S4x2304x512_S1536x512_S4x2304x1536_2_1_01_0_n_n_wf : DotDims.WF S4x2304x512 S1536x512 S4x2304x1536 [2] [1] [0, 1] [0] [] []
  dot_S4x8x2304x64_S4x8x2304x64_S4x8x2304x2304_3_3_2_2_01_01_wf : DotDims.WF S4x8x2304x64 S4x8x2304x64 S4x8x2304x2304 [3] [3] [2] [2] [0, 1] [0, 1]
  dot_S4x8x2304x2304_S4x8x2304x64_S4x8x2304x64_3_2_2_3_01_01_wf : DotDims.WF S4x8x2304x2304 S4x8x2304x64 S4x8x2304x64 [3] [2] [2] [3] [0, 1] [0, 1]
  dot_S4x2304x512_S512x512_S4x2304x512_2_1_01_0_n_n_wf : DotDims.WF S4x2304x512 S512x512 S4x2304x512 [2] [1] [0, 1] [0] [] []

variable [Facts₀]

def dot_S4x2304x512_S1536x512_S4x2304x1536_2_1_01_0_n_n : DotDims S4x2304x512 S1536x512 S4x2304x1536 where
  lhsContracting := [2]
  rhsContracting := [1]
  lhsNonContracting := [0, 1]
  rhsNonContracting := [0]
  lhsBatch := []
  rhsBatch := []
  wf := dot_S4x2304x512_S1536x512_S4x2304x1536_2_1_01_0_n_n_wf
def dot_S4x8x2304x64_S4x8x2304x64_S4x8x2304x2304_3_3_2_2_01_01 : DotDims S4x8x2304x64 S4x8x2304x64 S4x8x2304x2304 where
  lhsContracting := [3]
  rhsContracting := [3]
  lhsNonContracting := [2]
  rhsNonContracting := [2]
  lhsBatch := [0, 1]
  rhsBatch := [0, 1]
  wf := dot_S4x8x2304x64_S4x8x2304x64_S4x8x2304x2304_3_3_2_2_01_01_wf
def dot_S4x8x2304x2304_S4x8x2304x64_S4x8x2304x64_3_2_2_3_01_01 : DotDims S4x8x2304x2304 S4x8x2304x64 S4x8x2304x64 where
  lhsContracting := [3]
  rhsContracting := [2]
  lhsNonContracting := [2]
  rhsNonContracting := [3]
  lhsBatch := [0, 1]
  rhsBatch := [0, 1]
  wf := dot_S4x8x2304x2304_S4x8x2304x64_S4x8x2304x64_3_2_2_3_01_01_wf
def dot_S4x2304x512_S512x512_S4x2304x512_2_1_01_0_n_n : DotDims S4x2304x512 S512x512 S4x2304x512 where
  lhsContracting := [2]
  rhsContracting := [1]
  lhsNonContracting := [0, 1]
  rhsNonContracting := [0]
  lhsBatch := []
  rhsBatch := []
  wf := dot_S4x2304x512_S512x512_S4x2304x512_2_1_01_0_n_n_wf

class Facts : Prop extends Facts₀ where

variable [Facts]
-- ==== Proof.Glue.lean ====
/-
  What each region is entered with, and what the program returns, through the reshapes, slices and transposes
  between the regions.

  Before the first projection the input is flattened to 9216 rows. Between the first projection and the attention
  its output is viewed as `[4, 2304, 1536]`, cut into three along the token axis, and each third is viewed as
  `[4, 2304, 8, 64]`, transposed to put heads before tokens, and flattened to 32 heads. After the attention the heads are
  put back behind the tokens and flattened to 9216 rows of 512 channels. The result is the last projection's output
  viewed as `[4, 2304, 512]`. The weights and biases are the arguments, which nothing writes.
-/
import proofs.«135484_j19086834664148_1_alg».proof.Proof.Gen.KernelIdeal.Frame
import Idealize.ShloMosaic.Lib.StableHlo.Run
import Idealize.ShloMosaic.PureOps.Ideal

set_option maxRecDepth 16384

noncomputable section

namespace Cert.Attn

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## Before the first projection -/

/-- The first projection reads the input flattened to 9216 rows. -/
theorem entry0_x (c : Dev nD) :
    (V1 m ρ c main_v0 : S9216x512.Idx → EReal)
      = shapeCast S9216x512 (m ((c : Thread nD τ).loc main_arg0)) shapeCasts_S4x2304x512_S9216x512 := by
  show StableHlo.after hostOps0 (W0 m ρ c) (Proc.devRef .tc main_v0) = _
  after_results
  rfl

theorem entry0_w (c : Dev nD) : V1 m ρ c main_arg1 = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem entry0_b (c : Dev nD) : V1 m ρ c main_arg2 = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## Between the first projection and the attention -/

/-- The queries: the first third of the tokens, heads split off and put first, flattened to 32 heads. -/
theorem entry1_q (c : Dev nD) :
    (V3 m ρ c main_v8 : S32x2304x64.Idx → EReal)
      = shapeCast S32x2304x64 (transpose S4x8x2304x64 [0, 2, 1, 3] (shapeCast S4x2304x8x64
          (extractStridedSlice S4x768x1536 ![0, 0, 0]
            (shapeCast S4x2304x1536 (W2 m ρ c (Proc.devRef .tc main_v1)) shapeCasts_S9216x1536_S4x2304x1536)
            slices_S4x2304x1536_S4x768x1536_0_0_0)
          shapeCasts_S4x768x1536_S4x2304x8x64) transposes_S4x2304x8x64_S4x8x2304x64_0_2_1_3) shapeCasts_S4x8x2304x64_S32x2304x64 := by
  show StableHlo.after hostOps1 (W2 m ρ c) (Proc.devRef .tc main_v8) = _
  after_results
  rfl

/-- The keys: the second third of the tokens, laid out the same way. -/
theorem entry1_k (c : Dev nD) :
    (V3 m ρ c main_v11 : S32x2304x64.Idx → EReal)
      = shapeCast S32x2304x64 (transpose S4x8x2304x64 [0, 2, 1, 3] (shapeCast S4x2304x8x64
          (extractStridedSlice S4x768x1536 ![0, 768, 0]
            (shapeCast S4x2304x1536 (W2 m ρ c (Proc.devRef .tc main_v1)) shapeCasts_S9216x1536_S4x2304x1536)
            slices_S4x2304x1536_S4x768x1536_0_768_0)
          shapeCasts_S4x768x1536_S4x2304x8x64) transposes_S4x2304x8x64_S4x8x2304x64_0_2_1_3) shapeCasts_S4x8x2304x64_S32x2304x64 := by
  show StableHlo.after hostOps1 (W2 m ρ c) (Proc.devRef .tc main_v11) = _
  after_results
  rfl

/-- The values: the last third of the tokens, laid out the same way. -/
theorem entry1_v (c : Dev nD) :
    (V3 m ρ c main_v14 : S32x2304x64.Idx → EReal)
      = shapeCast S32x2304x64 (transpose S4x8x2304x64 [0, 2, 1, 3] (shapeCast S4x2304x8x64
          (extractStridedSlice S4x768x1536 ![0, 1536, 0]
            (shapeCast S4x2304x1536 (W2 m ρ c (Proc.devRef .tc main_v1)) shapeCasts_S9216x1536_S4x2304x1536)
            slices_S4x2304x1536_S4x768x1536_0_1536_0)
          shapeCasts_S4x768x1536_S4x2304x8x64) transposes_S4x2304x8x64_S4x8x2304x64_0_2_1_3) shapeCasts_S4x8x2304x64_S32x2304x64 := by
  show StableHlo.after hostOps1 (W2 m ρ c) (Proc.devRef .tc main_v14) = _
  after_results
  rfl

/-! ## Between the attention and the last projection -/

/-- The last projection reads the attention's output with the heads put back behind the tokens, as 9216 rows. -/
theorem entry2_x (c : Dev nD) :
    (V5 m ρ c main_v18 : S9216x512.Idx → EReal)
      = shapeCast S9216x512 (transpose S4x2304x8x64 [0, 2, 1, 3]
          (shapeCast S4x8x2304x64 (W4 m ρ c (Proc.devRef .tc main_v15)) shapeCasts_S32x2304x64_S4x8x2304x64)
          transposes_S4x8x2304x64_S4x2304x8x64_0_2_1_3) shapeCasts_S4x2304x8x64_S9216x512 := by
  show StableHlo.after hostOps2 (W4 m ρ c) (Proc.devRef .tc main_v18) = _
  after_results
  rfl

theorem entry2_w (c : Dev nD) : V5 m ρ c main_arg3 = m ((c : Thread nD τ).loc main_arg3) :=
  calc W5 m ρ c (Proc.devRef .tc main_arg3)
    _ = W6 m ρ c (Proc.devRef .tc main_arg3) := ((W6_arr m ρ c 1).trans (((dat2 (V5 m ρ) c).arrAt_in 1 rfl _).trans (A_eq2 (V5 m ρ) c 1))).symm
    _ = W7 m ρ c (Proc.devRef .tc main_arg3) := (StableHlo.after_of_forall_not_mem (b := Proc.devRef .tc main_arg3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = m ((c : Thread nD τ).loc main_arg3) := W7_main_arg3 m ρ c

theorem entry2_b (c : Dev nD) : V5 m ρ c main_arg4 = m ((c : Thread nD τ).loc main_arg4) :=
  calc W5 m ρ c (Proc.devRef .tc main_arg4)
    _ = W6 m ρ c (Proc.devRef .tc main_arg4) := ((W6_arr m ρ c 2).trans (((dat2 (V5 m ρ) c).arrAt_in 2 rfl _).trans (A_eq2 (V5 m ρ) c 2))).symm
    _ = W7 m ρ c (Proc.devRef .tc main_arg4) := (StableHlo.after_of_forall_not_mem (b := Proc.devRef .tc main_arg4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = m ((c : Thread nD τ).loc main_arg4) := W7_main_arg4 m ρ c

/-! ## After the last projection -/

/-- The program's result is the last projection's output viewed as `[4, 2304, 512]`. -/
theorem result_eq (c : Dev nD) :
    (W7 m ρ c (Proc.devRef .tc main_v20) : S4x2304x512.Idx → EReal)
      = shapeCast S4x2304x512 (W6 m ρ c (Proc.devRef .tc main_v19)) shapeCasts_S9216x512_S4x2304x512 := by
  show StableHlo.after hostOps3 (W6 m ρ c) (Proc.devRef .tc main_v20) = _
  after_results
  rfl

end Cert.Attn

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LibDotT.lean ====
/-
  A matrix product against the ROWS of its right operand, read at an entry, at the ideal values.

  `x · wᵀ`: an `M × K` array against an `N × K` array, each contracted on its last axis, no batch axis. At the ideal
  values the kernel's product into a zero accumulator and the host's product are, at entry `(p, q)`, the sum over `k` of
  `lhs (p, k) · rhs (q, k)`: row `p` of the left operand against row `q` of the right one, with no rounding and no order
  of accumulation left in it. Stated once for all sizes; a printed dimension record of this kind is
  `DotDims.transposedRhs M K N` up to its well-formedness proof.
-/
import Idealize.ShloMosaic.PureOps.Ideal.Laws
import Idealize.ShloMosaic.Lib.ValueIdx

noncomputable section

namespace Cert.DotT

open Idealize.ShloMosaic Idealize.ShloMosaic.ValueIdx

variable {M K N : ℕ}

theorem t_lhs0 (i : (⟨2, ![M, N]⟩ : Shape).Idx) (κ : (DotDims.transposedRhs M K N).contr.Idx) :
    ((DotDims.transposedRhs M K N).lhsIdx i κ 0).val = (i 0).val := rfl
theorem t_lhs1 (i : (⟨2, ![M, N]⟩ : Shape).Idx) (κ : (DotDims.transposedRhs M K N).contr.Idx) :
    ((DotDims.transposedRhs M K N).lhsIdx i κ 1).val = (κ ⟨0, Nat.one_pos⟩).val := rfl
theorem t_rhs0 (i : (⟨2, ![M, N]⟩ : Shape).Idx) (κ : (DotDims.transposedRhs M K N).contr.Idx) :
    ((DotDims.transposedRhs M K N).rhsIdx i κ 0).val = (i 1).val := rfl
theorem t_rhs1 (i : (⟨2, ![M, N]⟩ : Shape).Idx) (κ : (DotDims.transposedRhs M K N).contr.Idx) :
    ((DotDims.transposedRhs M K N).rhsIdx i κ 1).val = (κ ⟨0, Nat.one_pos⟩).val := rfl

/-- The sum over the contraction index of a product against rows, re-indexed by `k : Fin K`. -/
theorem t_sum {φ₁ φ₂ : FTy} (lhs : FVec Ideal ⟨2, ![M, K]⟩ φ₁) (rhs : FVec Ideal ⟨2, ![N, K]⟩ φ₂) (p : Fin M) (q : Fin N) :
    (∑ κ : (DotDims.transposedRhs M K N).contr.Idx,
        lhs ((DotDims.transposedRhs M K N).lhsIdx (ix2 p q) κ) * rhs ((DotDims.transposedRhs M K N).rhsIdx (ix2 p q) κ))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact t_lhs0 _ _
      | ⟨1, _⟩ => exact (t_lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact t_rhs0 _ _
      | ⟨1, _⟩ => exact (t_rhs1 _ _).trans hk)
  rw [el, er]

/-- A kernel's product against rows into the zero accumulator, read at entry `(p, q)`. -/
theorem matmul_t_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact t_sum lhs rhs p q

/-- The host's product against rows, read at entry `(p, q)`. -/
theorem dotGeneral_t_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact t_sum lhs rhs p q

end Cert.DotT

end
-- ==== Proof.Spec.lean ====
/-
  What the network computes, as functions of whole arrays over the extended reals.

  A linear layer takes rows: entry `(p, q)` of `lin x w b` is row `p` of `x` against row `q` of `w`, plus `b q`.
  The attention has no softmax: for each head `h`, entry `(t, d)` of `att q k v s` is the sum over the keys `j` of the
  scaled score `(q[h,t,·] · k[h,j,·]) · s` times `v[h,j,d]`. The scale is one eighth, which the kernel multiplies by
  and the reference divides by its inverse: on the extended reals these are one function of every score, the
  infinite ones included.
-/
import Idealize.ShloMosaic.PureOps.Ideal.Laws
import Idealize.ShloMosaic.Lib.ValueIdx

noncomputable section

namespace Cert.Attn

open Idealize.ShloMosaic Idealize.ShloMosaic.ValueIdx

/-- Row `p` of `x` against row `q` of `w`, plus the bias at `q`. -/
def linAt {M K N : ℕ} (x : (⟨2, ![M, K]⟩ : Shape).Idx → EReal) (w : (⟨2, ![N, K]⟩ : Shape).Idx → EReal)
    (b : (⟨1, ![N]⟩ : Shape).Idx → EReal) (p : Fin M) (q : Fin N) : EReal :=
  (∑ k : Fin K, x (ix2 p k) * w (ix2 q k)) + b (ix1 q)

/-- The linear layer `x · wᵀ + b` as a whole array. -/
def lin {M K N : ℕ} (x : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => linAt x w b ⟨(i 0).val, (i 0).isLt⟩ ⟨(i 1).val, (i 1).isLt⟩

theorem lin_ix2 {M K N : ℕ} (x : (⟨2, ![M, K]⟩ : Shape).Idx → EReal) (w : (⟨2, ![N, K]⟩ : Shape).Idx → EReal)
    (b : (⟨1, ![N]⟩ : Shape).Idx → EReal) (p : Fin M) (q : Fin N) : lin x w b (ix2 p q) = linAt x w b p q := rfl

/-- Head `h`, query `t`, channel `d` of the attention without softmax, the scores scaled by `s`. -/
def attAt {H T D : ℕ} (q k v : (⟨3, ![H, T, D]⟩ : Shape).Idx → EReal) (s : EReal) (h : Fin H) (t : Fin T) (d : Fin D) : EReal :=
  ∑ j : Fin T, ((∑ e : Fin D, q (ix3 h t e) * k (ix3 h j e)) * s) * v (ix3 h j d)

/-- The attention without softmax as a whole array. -/
def att {H T D : ℕ} (q k v : (⟨3, ![H, T, D]⟩ : Shape).Idx → EReal) (s : EReal) : (⟨3, ![H, T, D]⟩ : Shape).Idx → EReal :=
  fun i => attAt q k v s ⟨(i 0).val, (i 0).isLt⟩ ⟨(i 1).val, (i 1).isLt⟩ ⟨(i 2).val, (i 2).isLt⟩

theorem att_ix3 {H T D : ℕ} (q k v : (⟨3, ![H, T, D]⟩ : Shape).Idx → EReal) (s : EReal) (h : Fin H) (t : Fin T) (d : Fin D) :
    att q k v s (ix3 h t d) = attAt q k v s h t d := rfl

/-- The kernel's scale `0.125` denotes one eighth. -/
theorem ofBits_eighth : Ideal.ofBits .f32 0x3E000000#32 = ((1 / 8 : ℝ) : EReal) := by
  simp [Ideal.ofBits, Ideal.ieee, -EReal.coe_mul]; norm_num

/-- The reference's divisor `8.0` denotes eight. -/
theorem ofBits_eight : Ideal.ofBits .f32 0x41000000#32 = ((8 : ℝ) : EReal) := by
  simp [Ideal.ofBits, Ideal.ieee, -EReal.coe_mul]; norm_num

/-- Dividing by eight is multiplying by one eighth, on every extended real. -/
theorem div_eight (x : EReal) : Ideal.div x (Ideal.ofBits .f32 0x41000000#32) = x * Ideal.ofBits .f32 0x3E000000#32 := by
  rw [ofBits_eight, ofBits_eighth]
  exact Ideal.div_coe (by norm_num) x

end Cert.Attn

end
-- ==== Proof.Payload.lean ====
/-
  What each kernel body stores, read at one entry, at the ideal values.

  The two projection bodies store row `p` of their input block against row `q` of the weight, plus the bias at `q`:
  the changes of float format are the identity, the product runs into a zero accumulator, and the bias row is
  broadcast down the block. The attention body stores, at query `t` and channel `d` of its block, the sum over all
  keys `j` of the score `(q[t,·] · k[j,·])` times the scale times `v[j,d]`: its first product is against the rows of
  the keys, its second a plain rows-by-columns product.
-/
import proofs.«135484_j19086834664148_1_alg».proof.Proof.Gen.KernelIdeal.Skeleton
import proofs.«135484_j19086834664148_1_alg».proof.Proof.LibDot
import proofs.«135484_j19086834664148_1_alg».proof.Proof.LibDotT
import proofs.«135484_j19086834664148_1_alg».proof.Proof.Spec
import Idealize.ShloMosaic.Lib.Pipeline.Value
import Idealize.ShloMosaic.Lib.ValueLayout

noncomputable section

namespace Cert.Attn

open Cert.KernelIdeal Cert.KernelIdeal.Gen Idealize.ShloMosaic Idealize.ShloMosaic.ValueIdx

/-- The first projection's body at entry `(p, q)` of its block. -/
theorem pay0 (x0 : Vec Ideal S512x512 .f32) (x1 : Vec Ideal S1536x512 .f32) (x2 : Vec Ideal S1536 .f32)
    (p : Fin 512) (q : Fin 1536) :
    k0_pay1 (F := Ideal) x0 x1 x2 (ix2 p q) = linAt x0 x1 x2 p q := by
  unfold k0_pay1 linAt
  refine (truncf_apply (φ := .f32) (ψ := .bf16) _ _ _).trans ?_
  refine (addf_apply _ _ _).trans ?_
  refine congrArg₂ (· + ·) ?_ ?_
  · refine (Cert.DotT.matmul_t_zero_apply (M := 512) (K := 512) (N := 1536) none _ _ p q).trans ?_
    refine Finset.sum_congr rfl fun k _ => ?_
    exact congrArg₂ (· * ·) (congrFun (shapeCast_self x0 _) (ix2 p k)) rfl
  · exact (broadcastTo_1b_ab_apply _ _ p q).trans (shapeCast_a_1a_apply x2 _ 0 q)

/-- The last projection's body at entry `(p, q)` of its block. -/
theorem pay2 (x0 : Vec Ideal S512x512 .bf16) (x1 : Vec Ideal S512x512 .f32) (x2 : Vec Ideal S512 .f32)
    (p : Fin 512) (q : Fin 512) :
    k2_pay1 (F := Ideal) x0 x1 x2 (ix2 p q) = linAt x0 x1 x2 p q := by
  unfold k2_pay1 linAt
  refine (addf_apply _ _ _).trans ?_
  refine congrArg₂ (· + ·) ?_ ?_
  · refine (Cert.DotT.matmul_t_zero_apply (M := 512) (K := 512) (N := 512) none _ _ p q).trans ?_
    refine Finset.sum_congr rfl fun k _ => ?_
    exact congrArg₂ (· * ·) (congrFun (shapeCast_self x0 _) (ix2 p k)) rfl
  · exact (broadcastTo_1b_ab_apply _ _ p q).trans (shapeCast_a_1a_apply x2 _ 0 q)

/-- The attention body at query `t`, channel `d` of its block: over all keys `j`, the scaled score times `v[j, d]`. -/
theorem pay1 (x0 : Vec Ideal S1x768x64 .bf16) (x1 x2 : Vec Ideal S1x2304x64 .bf16) (u : Fin 1) (t : Fin 768) (d : Fin 64) :
    k1_pay1 (F := Ideal) x0 x1 x2 (ix3 u t d)
      = ∑ j : Fin 2304, ((∑ e : Fin 64, x0 (ix3 (0 : Fin 1) t e) * x1 (ix3 (0 : Fin 1) j e)) * Ideal.ofBits .f32 0x3E000000#32)
          * x2 (ix3 (0 : Fin 1) j d) := by
  unfold k1_pay1
  refine (shapeCast_ab_1ab_apply _ _ u t d).trans ?_
  refine (truncf_apply (φ := .f32) (ψ := .bf16) _ _ _).trans ?_
  refine (Cert.GNN.matmul_plain_zero_apply (M := 768) (K := 2304) (N := 64) none _ _ t d).trans ?_
  refine Finset.sum_congr rfl fun j _ => ?_
  refine congrArg₂ (· * ·) ?_ ?_
  · refine (truncf_apply (φ := .f32) (ψ := .bf16) _ _ _).trans ?_
    refine (mulf_apply _ _ _).trans ?_
    refine congrArg₂ (· * ·) ?_ rfl
    refine (Cert.DotT.matmul_t_zero_apply (M := 768) (K := 64) (N := 2304) none _ _ t j).trans ?_
    refine Finset.sum_congr rfl fun e _ => ?_
    exact congrArg₂ (· * ·) (shapeCast_1ab_ab_apply x0 _ t e) (shapeCast_1ab_ab_apply x1 _ j e)
  · exact shapeCast_1ab_ab_apply x2 _ j d

end Cert.Attn

end
-- ==== Proof.Region0.lean ====
/-
  The first projection as a whole array.

  The grid has 18 points; point `t` takes rows `512·t … 512·t + 511` of the input, the whole weight and the whole bias,
  and writes the same rows of the output. Each written block is the corresponding block of `lin x w b`, and the 18 blocks
  cover the output, so after the region the output array is `lin x w b` of the arrays the region was entered with.
-/
import proofs.«135484_j19086834664148_1_alg».proof.Proof.Gen.KernelIdeal.Frame
import proofs.«135484_j19086834664148_1_alg».proof.Proof.Payload
import Idealize.ShloMosaic.Lib.Pipeline.Value

set_option maxRecDepth 16384

noncomputable section

namespace Cert.Attn

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the 18 points: the input and the output move down the rows together, the weight and
    the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row `p` of the input block at point `t` is row `512·t + p` of the input array. -/
theorem read0_x (c : Dev nD) (t : Fin cfg0.N) (p : Fin 512) (k : Fin 512) (hp : t.val * 512 + p.val < 9216) :
    iblk0 V c 0 t (ix2 p k) = (V c main_v0 : S9216x512.Idx → EReal) (ix2 ⟨t.val * 512 + p.val, hp⟩ k) := by
  obtain ⟨e0, e1, -⟩ := idx_facts0 t
  show V c main_v0 (((cfg0.win 0).blk t).view.emb (ix2 p k)) = _
  refine congrArg _ (funext fun a => Fin.ext ?_)
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

/-- The weight block at every point is the whole weight. -/
theorem read0_w (c : Dev nD) (t : Fin cfg0.N) (q : Fin 1536) (k : Fin 512) :
    iblk0 V c 1 t (ix2 q k) = (V c main_arg1 : S1536x512.Idx → EReal) (ix2 q k) := by
  obtain ⟨-, -, e2, e3, -⟩ := idx_facts0 t
  show V c main_arg1 (((cfg0.win 1).blk t).view.emb (ix2 q k)) = _
  refine congrArg _ (funext fun a => Fin.ext ?_)
  match a with
  | ⟨0, _⟩ => show win0_1.index t (0 : Fin 2) * 1536 + 1 * q.val = q.val; rw [e2]; omega
  | ⟨1, _⟩ => show win0_1.index t (1 : Fin 2) * 512 + 1 * k.val = k.val; rw [e3]; omega

/-- The bias block at every point is the whole bias. -/
theorem read0_b (c : Dev nD) (t : Fin cfg0.N) (q : Fin 1536) :
    iblk0 V c 2 t (ix1 q) = (V c main_arg2 : S1536.Idx → EReal) (ix1 q) := by
  obtain ⟨-, -, -, -, e4, -⟩ := idx_facts0 t
  show V c main_arg2 (((cfg0.win 2).blk t).view.emb (ix1 q)) = _
  refine congrArg _ (funext fun a => Fin.ext ?_)
  match a with
  | ⟨0, _⟩ => show win0_2.index t (0 : Fin 1) * 1536 + 1 * q.val = q.val; rw [e4]; omega

/-- What point `t` writes back is block `t` of the linear layer of the arrays as the region finds them. -/
theorem flushed0_eq (c : Dev nD) (t : Fin cfg0.N) :
    (dat0 V c).flushed 3 t = ((cfg0.win 3).blk t).view.read (Elt Ideal)
      (lin (V c main_v0 : S9216x512.Idx → EReal) (V c main_arg1 : S1536x512.Idx → EReal) (V c main_arg2 : S1536.Idx → EReal)) := by
  show (cfg0.win 3).cut (grid0.coords t) ((dat0 V c).after 3 t) = _
  rw [after0_3]
  unfold out0_3
  rw [View.canon_unit_zero hz2]
  simp only [View.ld_unit_zero (S := S512x512) hz2, View.ld_unit_zero (S := S1536x512) hz2, View.ld_unit_zero (S := S1536) hz1]
  funext j
  obtain ⟨p, q, rfl⟩ : ∃ (p : Fin 512) (q : Fin 1536), j = ix2 p q := ⟨j 0, j 1, eq_ix2 j⟩
  have ht : t.val < 18 := t.isLt
  have hp : t.val * 512 + p.val < 9216 := by have := p.isLt; omega
  obtain ⟨-, -, -, -, -, e5, e6⟩ := idx_facts0 t
  have he : ((cfg0.win 3).blk t).view.emb (ix2 p q) = ix2 (⟨t.val * 512 + p.val, hp⟩ : Fin 9216) q :=
    funext fun a => Fin.ext (by
      match a with
      | ⟨0, _⟩ => show win0_3.index t (0 : Fin 2) * 512 + 1 * p.val = t.val * 512 + p.val; rw [e5]; omega
      | ⟨1, _⟩ => show win0_3.index t (1 : Fin 2) * 1536 + 1 * q.val = q.val; rw [e6]; omega)
  show k0_pay1 (F := Ideal) (iblk0 V c 0 t) (iblk0 V c 1 t) (iblk0 V c 2 t) (ix2 p q)
    = lin (V c main_v0 : S9216x512.Idx → EReal) (V c main_arg1 : S1536x512.Idx → EReal) (V c main_arg2 : S1536.Idx → EReal)
        (((cfg0.win 3).blk t).view.emb (ix2 p q))
  rw [he, lin_ix2]
  refine (pay0 (iblk0 V c 0 t) (iblk0 V c 1 t) (iblk0 V c 2 t) p q).trans ?_
  unfold linAt
  refine congrArg₂ (· + ·) (Finset.sum_congr rfl fun k _ => ?_) (read0_b V c t q)
  exact congrArg₂ (· * ·) (read0_x V c t p k hp) (read0_w V c t q k)

/-- An index of the output is in point `t`'s block iff each coordinate is in the block's range on its axis. -/
theorem mem_blk0 (t : Fin cfg0.N) (i : S9216x1536.Idx) :
    i ∈ ((cfg0.win 3).blk t).view.set ↔ ∀ a : Fin 2, win0_3.index t a * S512x1536.size a ≤ (i a).val
      ∧ (i a).val < win0_3.index t a * S512x1536.size a + S512x1536.size a := by
  show i ∈ ((View.whole main_v1).slice (win0_3.rect t)).set ↔ _
  rw [View.set_slice_whole, Rect.mem_set_unit]
  exact Iff.rfl

/-- Row `r` of the output is written by point `r / 512`: the 18 blocks cover the output. -/
theorem cover0 (i : S9216x1536.Idx) :
    ∃ t : Fin cfg0.N, (cfg0.win 3).flush t = true ∧ i ∈ ((cfg0.win 3).blk t).view.set := by
  have hi0 : (i 0).val < 9216 := (i 0).isLt
  have hi1 : (i 1).val < 1536 := (i 1).isLt
  have hN : cfg0.N = 18 := N_0
  let t : Fin cfg0.N := ⟨(i 0).val / 512, by rw [hN]; omega⟩
  have htv : t.val = (i 0).val / 512 := rfl
  refine ⟨t, flush0_3 t, ?_⟩
  rw [mem_blk0]
  obtain ⟨-, -, -, -, -, e5, e6⟩ := idx_facts0 t
  intro a
  match a with
  | ⟨0, _⟩ =>
    show win0_3.index t (0 : Fin 2) * 512 ≤ (i 0).val ∧ (i 0).val < win0_3.index t (0 : Fin 2) * 512 + 512
    rw [e5, htv]; omega
  | ⟨1, _⟩ =>
    show win0_3.index t (1 : Fin 2) * 1536 ≤ (i 1).val ∧ (i 1).val < win0_3.index t (1 : Fin 2) * 1536 + 1536
    rw [e6]; omega

/-- After the region its output array is the linear layer of the arrays it was entered with. -/
theorem final0 (c : Dev nD) :
    (dat0 V c).arrAt 3 cfg0.N
      = lin (V c main_v0 : S9216x512.Idx → EReal) (V c main_arg1 : S1536x512.Idx → EReal) (V c main_arg2 : S1536.Idx → EReal) :=
  (dat0 V c).arrAt_eq_of_cover 3 _ (fun t _ => flushed0_eq V c t) cover0

end Cert.Attn

end
-- ==== Proof.Region1.lean ====
/-
  The attention as a whole array.

  The grid has 32 · 3 points; point `t` is head `t / 3` and query tile `t % 3`: it takes queries
  `768·(t % 3) … 768·(t % 3) + 767` of that head and all 2304 keys and values of that head, and writes the same queries
  of the output. Each written block is the corresponding block of `att q k v s`, and the 96 blocks cover the output, so
  after the region the output array is `att q k v s` of the arrays the region was entered with.
-/
import proofs.«135484_j19086834664148_1_alg».proof.Proof.Gen.KernelIdeal.Frame
import proofs.«135484_j19086834664148_1_alg».proof.Proof.Payload
import Idealize.ShloMosaic.Lib.Pipeline.Value

set_option maxRecDepth 16384

noncomputable section

namespace Cert.Attn

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the 96 points: queries and output move with head and tile, keys and values with the
    head only. -/
theorem idx_facts1 : ∀ t : Fin cfg1.N,
    win1_0.index t (0 : Fin 3) = t.val / 3 ∧ win1_0.index t (1 : Fin 3) = t.val % 3 ∧ win1_0.index t (2 : Fin 3) = 0
    ∧ win1_1.index t (0 : Fin 3) = t.val / 3 ∧ win1_1.index t (1 : Fin 3) = 0 ∧ win1_1.index t (2 : Fin 3) = 0
    ∧ win1_2.index t (0 : Fin 3) = t.val / 3 ∧ win1_2.index t (1 : Fin 3) = 0 ∧ win1_2.index t (2 : Fin 3) = 0
    ∧ win1_3.index t (0 : Fin 3) = t.val / 3 ∧ win1_3.index t (1 : Fin 3) = t.val % 3 ∧ win1_3.index t (2 : Fin 3) = 0 :=
  (by decide +kernel : ∀ t : Fin grid1.N, _)

/-- Query `tq` of the query block at point `t` is query `768·(t % 3) + tq` of head `t / 3`. -/
theorem read1_q (c : Dev nD) (t : Fin cfg1.N) (tq : Fin 768) (e : Fin 64) (hh : t.val / 3 < 32) (hq : t.val % 3 * 768 + tq.val < 2304) :
    iblk1 V c 0 t (ix3 (0 : Fin 1) tq e)
      = (V c main_v8 : S32x2304x64.Idx → EReal) (ix3 ⟨t.val / 3, hh⟩ ⟨t.val % 3 * 768 + tq.val, hq⟩ e) := by
  obtain ⟨e0, e1, e2, -⟩ := idx_facts1 t
  show V c main_v8 (((cfg1.win 0).blk t).view.emb (ix3 (0 : Fin 1) tq e)) = _
  refine congrArg _ (funext fun a => Fin.ext ?_)
  match a with
  | ⟨0, _⟩ => show win1_0.index t (0 : Fin 3) * 1 + 1 * 0 = t.val / 3; rw [e0]; omega
  | ⟨1, _⟩ => show win1_0.index t (1 : Fin 3) * 768 + 1 * tq.val = t.val % 3 * 768 + tq.val; rw [e1]; omega
  | ⟨2, _⟩ => show win1_0.index t (2 : Fin 3) * 64 + 1 * e.val = e.val; rw [e2]; omega

/-- Key `j` of the key block at point `t` is key `j` of head `t / 3`. -/
theorem read1_k (c : Dev nD) (t : Fin cfg1.N) (j : Fin 2304) (e : Fin 64) (hh : t.val / 3 < 32) :
    iblk1 V c 1 t (ix3 (0 : Fin 1) j e) = (V c main_v11 : S32x2304x64.Idx → EReal) (ix3 ⟨t.val / 3, hh⟩ j e) := by
  obtain ⟨-, -, -, e3, e4, e5, -⟩ := idx_facts1 t
  show V c main_v11 (((cfg1.win 1).blk t).view.emb (ix3 (0 : Fin 1) j e)) = _
  refine congrArg _ (funext fun a => Fin.ext ?_)
  match a with
  | ⟨0, _⟩ => show win1_1.index t (0 : Fin 3) * 1 + 1 * 0 = t.val / 3; rw [e3]; omega
  | ⟨1, _⟩ => show win1_1.index t (1 : Fin 3) * 2304 + 1 * j.val = j.val; rw [e4]; omega
  | ⟨2, _⟩ => show win1_1.index t (2 : Fin 3) * 64 + 1 * e.val = e.val; rw [e5]; omega

/-- Value `j` of the value block at point `t` is value `j` of head `t / 3`. -/
theorem read1_v (c : Dev nD) (t : Fin cfg1.N) (j : Fin 2304) (d : Fin 64) (hh : t.val / 3 < 32) :
    iblk1 V c 2 t (ix3 (0 : Fin 1) j d) = (V c main_v14 : S32x2304x64.Idx → EReal) (ix3 ⟨t.val / 3, hh⟩ j d) := by
  obtain ⟨-, -, -, -, -, -, e6, e7, e8, -⟩ := idx_facts1 t
  show V c main_v14 (((cfg1.win 2).blk t).view.emb (ix3 (0 : Fin 1) j d)) = _
  refine congrArg _ (funext fun a => Fin.ext ?_)
  match a with
  | ⟨0, _⟩ => show win1_2.index t (0 : Fin 3) * 1 + 1 * 0 = t.val / 3; rw [e6]; omega
  | ⟨1, _⟩ => show win1_2.index t (1 : Fin 3) * 2304 + 1 * j.val = j.val; rw [e7]; omega
  | ⟨2, _⟩ => show win1_2.index t (2 : Fin 3) * 64 + 1 * d.val = d.val; rw [e8]; omega

/-- What point `t` writes back is block `t` of the attention of the arrays as the region finds them. -/
theorem flushed1_eq (c : Dev nD) (t : Fin cfg1.N) :
    (dat1 V c).flushed 3 t = ((cfg1.win 3).blk t).view.read (Elt Ideal)
      (att (V c main_v8 : S32x2304x64.Idx → EReal) (V c main_v11 : S32x2304x64.Idx → EReal) (V c main_v14 : S32x2304x64.Idx → EReal)
        (Ideal.ofBits .f32 0x3E000000#32)) := by
  show (cfg1.win 3).cut (grid1.coords t) ((dat1 V c).after 3 t) = _
  rw [after1_3]
  unfold out1_3
  rw [View.canon_unit_zero hz3]
  simp only [View.ld_unit_zero (S := S1x768x64) hz3, View.ld_unit_zero (S := S1x2304x64) hz3]
  funext j
  obtain ⟨u, tq, d, rfl⟩ : ∃ (u : Fin 1) (tq : Fin 768) (d : Fin 64), j = ix3 u tq d := ⟨j 0, j 1, j 2, eq_ix3 j⟩
  have hN : cfg1.N = 96 := N_1
  have ht : t.val < 96 := Nat.lt_of_lt_of_eq t.isLt hN
  have hh : t.val / 3 < 32 := by omega
  have hq : t.val % 3 * 768 + tq.val < 2304 := by have := tq.isLt; omega
  have hu : u.val = 0 := by omega
  obtain ⟨-, -, -, -, -, -, -, -, -, e9, e10, e11⟩ := idx_facts1 t
  have he : ((cfg1.win 3).blk t).view.emb (ix3 u tq d)
      = ix3 (⟨t.val / 3, hh⟩ : Fin 32) (⟨t.val % 3 * 768 + tq.val, hq⟩ : Fin 2304) d :=
    funext fun a => Fin.ext (by
      match a with
      | ⟨0, _⟩ => show win1_3.index t (0 : Fin 3) * 1 + 1 * u.val = t.val / 3; rw [e9, hu]; omega
      | ⟨1, _⟩ => show win1_3.index t (1 : Fin 3) * 768 + 1 * tq.val = t.val % 3 * 768 + tq.val; rw [e10]; omega
      | ⟨2, _⟩ => show win1_3.index t (2 : Fin 3) * 64 + 1 * d.val = d.val; rw [e11]; omega)
  show k1_pay1 (F := Ideal) (iblk1 V c 0 t) (iblk1 V c 1 t) (iblk1 V c 2 t) (ix3 u tq d)
    = att (V c main_v8 : S32x2304x64.Idx → EReal) (V c main_v11 : S32x2304x64.Idx → EReal) (V c main_v14 : S32x2304x64.Idx → EReal)
        (Ideal.ofBits .f32 0x3E000000#32) (((cfg1.win 3).blk t).view.emb (ix3 u tq d))
  rw [he, att_ix3]
  refine (pay1 (iblk1 V c 0 t) (iblk1 V c 1 t) (iblk1 V c 2 t) u tq d).trans ?_
  unfold attAt
  refine Finset.sum_congr rfl fun j _ => ?_
  refine congrArg₂ (· * ·) (congrArg₂ (· * ·) (Finset.sum_congr rfl fun e _ => ?_) rfl) (read1_v V c t j d hh)
  exact congrArg₂ (· * ·) (read1_q V c t tq e hh hq) (read1_k V c t j e hh)

/-- An index of the output is in point `t`'s block iff each coordinate is in the block's range on its axis. -/
theorem mem_blk1 (t : Fin cfg1.N) (i : S32x2304x64.Idx) :
    i ∈ ((cfg1.win 3).blk t).view.set ↔ ∀ a : Fin 3, win1_3.index t a * S1x768x64.size a ≤ (i a).val
      ∧ (i a).val < win1_3.index t a * S1x768x64.size a + S1x768x64.size a := by
  show i ∈ ((View.whole main_v15).slice (win1_3.rect t)).set ↔ _
  rw [View.set_slice_whole, Rect.mem_set_unit]
  exact Iff.rfl

/-- Query `n` of head `h` is written by point `3·h + n / 768`: the 96 blocks cover the output. -/
theorem cover1 (i : S32x2304x64.Idx) :
    ∃ t : Fin cfg1.N, (cfg1.win 3).flush t = true ∧ i ∈ ((cfg1.win 3).blk t).view.set := by
  have hi0 : (i 0).val < 32 := (i 0).isLt
  have hi1 : (i 1).val < 2304 := (i 1).isLt
  have hi2 : (i 2).val < 64 := (i 2).isLt
  have hN : cfg1.N = 96 := N_1
  let t : Fin cfg1.N := ⟨(i 0).val * 3 + (i 1).val / 768, by rw [hN]; omega⟩
  have htv : t.val = (i 0).val * 3 + (i 1).val / 768 := rfl
  refine ⟨t, flush1_3 t, ?_⟩
  rw [mem_blk1]
  obtain ⟨-, -, -, -, -, -, -, -, -, e9, e10, e11⟩ := idx_facts1 t
  intro a
  match a with
  | ⟨0, _⟩ =>
    show win1_3.index t (0 : Fin 3) * 1 ≤ (i 0).val ∧ (i 0).val < win1_3.index t (0 : Fin 3) * 1 + 1
    rw [e9, htv]; omega
  | ⟨1, _⟩ =>
    show win1_3.index t (1 : Fin 3) * 768 ≤ (i 1).val ∧ (i 1).val < win1_3.index t (1 : Fin 3) * 768 + 768
    rw [e10, htv]; omega
  | ⟨2, _⟩ =>
    show win1_3.index t (2 : Fin 3) * 64 ≤ (i 2).val ∧ (i 2).val < win1_3.index t (2 : Fin 3) * 64 + 64
    rw [e11]; omega

/-- After the region its output array is the attention of the arrays it was entered with. -/
theorem final1 (c : Dev nD) :
    (dat1 V c).arrAt 3 cfg1.N
      = att (V c main_v8 : S32x2304x64.Idx → EReal) (V c main_v11 : S32x2304x64.Idx → EReal) (V c main_v14 : S32x2304x64.Idx → EReal)
          (Ideal.ofBits .f32 0x3E000000#32) :=
  (dat1 V c).arrAt_eq_of_cover 3 _ (fun t _ => flushed1_eq V c t) cover1

end Cert.Attn

end
-- ==== Proof.Region2.lean ====
/-
  The last projection as a whole array.

  The grid has 18 points; point `t` takes rows `512·t … 512·t + 511` of the re-assembled attention output, the whole
  output weight and the whole output bias, and writes the same rows of the result. Each written block is the
  corresponding block of `lin x w b`, and the 18 blocks cover the result, so after the region the output array is
  `lin x w b` of the arrays the region was entered with.
-/
import proofs.«135484_j19086834664148_1_alg».proof.Proof.Gen.KernelIdeal.Frame
import proofs.«135484_j19086834664148_1_alg».proof.Proof.Payload
import proofs.«135484_j19086834664148_1_alg».proof.Proof.Region0
import Idealize.ShloMosaic.Lib.Pipeline.Value

set_option maxRecDepth 16384

noncomputable section

namespace Cert.Attn

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the 18 points: the input and the output move down the rows together, the weight and
    the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row `p` of the input block at point `t` is row `512·t + p` of the input array. -/
theorem read2_x (c : Dev nD) (t : Fin cfg2.N) (p : Fin 512) (k : Fin 512) (hp : t.val * 512 + p.val < 9216) :
    iblk2 V c 0 t (ix2 p k) = (V c main_v18 : S9216x512.Idx → EReal) (ix2 ⟨t.val * 512 + p.val, hp⟩ k) := by
  obtain ⟨e0, e1, -⟩ := idx_facts2 t
  show V c main_v18 (((cfg2.win 0).blk t).view.emb (ix2 p k)) = _
  refine congrArg _ (funext fun a => Fin.ext ?_)
  match a with
  | ⟨0, _⟩ => show win2_0.index t (0 : Fin 2) * 512 + 1 * p.val = t.val * 512 + p.val; rw [e0]; omega
  | ⟨1, _⟩ => show win2_0.index t (1 : Fin 2) * 512 + 1 * k.val = k.val; rw [e1]; omega

/-- The weight block at every point is the whole weight. -/
theorem read2_w (c : Dev nD) (t : Fin cfg2.N) (q : Fin 512) (k : Fin 512) :
    iblk2 V c 1 t (ix2 q k) = (V c main_arg3 : S512x512.Idx → EReal) (ix2 q k) := by
  obtain ⟨-, -, e2, e3, -⟩ := idx_facts2 t
  show V c main_arg3 (((cfg2.win 1).blk t).view.emb (ix2 q k)) = _
  refine congrArg _ (funext fun a => Fin.ext ?_)
  match a with
  | ⟨0, _⟩ => show win2_1.index t (0 : Fin 2) * 512 + 1 * q.val = q.val; rw [e2]; omega
  | ⟨1, _⟩ => show win2_1.index t (1 : Fin 2) * 512 + 1 * k.val = k.val; rw [e3]; omega

/-- The bias block at every point is the whole bias. -/
theorem read2_b (c : Dev nD) (t : Fin cfg2.N) (q : Fin 512) :
    iblk2 V c 2 t (ix1 q) = (V c main_arg4 : S512.Idx → EReal) (ix1 q) := by
  obtain ⟨-, -, -, -, e4, -⟩ := idx_facts2 t
  show V c main_arg4 (((cfg2.win 2).blk t).view.emb (ix1 q)) = _
  refine congrArg _ (funext fun a => Fin.ext ?_)
  match a with
  | ⟨0, _⟩ => show win2_2.index t (0 : Fin 1) * 512 + 1 * q.val = q.val; rw [e4]; omega

/-- What point `t` writes back is block `t` of the linear layer of the arrays as the region finds them. -/
theorem flushed2_eq (c : Dev nD) (t : Fin cfg2.N) :
    (dat2 V c).flushed 3 t = ((cfg2.win 3).blk t).view.read (Elt Ideal)
      (lin (V c main_v18 : S9216x512.Idx → EReal) (V c main_arg3 : S512x512.Idx → EReal) (V c main_arg4 : S512.Idx → EReal)) := by
  show (cfg2.win 3).cut (grid2.coords t) ((dat2 V c).after 3 t) = _
  rw [after2_3]
  unfold out2_3
  rw [View.canon_unit_zero hz2]
  simp only [View.ld_unit_zero (S := S512x512) hz2, View.ld_unit_zero (S := S512) hz1]
  funext j
  obtain ⟨p, q, rfl⟩ : ∃ (p : Fin 512) (q : Fin 512), j = ix2 p q := ⟨j 0, j 1, eq_ix2 j⟩
  have hN : cfg2.N = 18 := N_2
  have ht : t.val < 18 := Nat.lt_of_lt_of_eq t.isLt hN
  have hp : t.val * 512 + p.val < 9216 := by have := p.isLt; omega
  obtain ⟨-, -, -, -, -, e5, e6⟩ := idx_facts2 t
  have he : ((cfg2.win 3).blk t).view.emb (ix2 p q) = ix2 (⟨t.val * 512 + p.val, hp⟩ : Fin 9216) q :=
    funext fun a => Fin.ext (by
      match a with
      | ⟨0, _⟩ => show win2_3.index t (0 : Fin 2) * 512 + 1 * p.val = t.val * 512 + p.val; rw [e5]; omega
      | ⟨1, _⟩ => show win2_3.index t (1 : Fin 2) * 512 + 1 * q.val = q.val; rw [e6]; omega)
  show k2_pay1 (F := Ideal) (iblk2 V c 0 t) (iblk2 V c 1 t) (iblk2 V c 2 t) (ix2 p q)
    = lin (V c main_v18 : S9216x512.Idx → EReal) (V c main_arg3 : S512x512.Idx → EReal) (V c main_arg4 : S512.Idx → EReal)
        (((cfg2.win 3).blk t).view.emb (ix2 p q))
  rw [he, lin_ix2]
  refine (pay2 (iblk2 V c 0 t) (iblk2 V c 1 t) (iblk2 V c 2 t) p q).trans ?_
  unfold linAt
  refine congrArg₂ (· + ·) (Finset.sum_congr rfl fun k _ => ?_) (read2_b V c t q)
  exact congrArg₂ (· * ·) (read2_x V c t p k hp) (read2_w V c t q k)

/-- An index of the result is in point `t`'s block iff each coordinate is in the block's range on its axis. -/
theorem mem_blk2 (t : Fin cfg2.N) (i : S9216x512.Idx) :
    i ∈ ((cfg2.win 3).blk t).view.set ↔ ∀ a : Fin 2, win2_3.index t a * S512x512.size a ≤ (i a).val
      ∧ (i a).val < win2_3.index t a * S512x512.size a + S512x512.size a := by
  show i ∈ ((View.whole main_v19).slice (win2_3.rect t)).set ↔ _
  rw [View.set_slice_whole, Rect.mem_set_unit]
  exact Iff.rfl

/-- Row `r` of the result is written by point `r / 512`: the 18 blocks cover the result. -/
theorem cover2 (i : S9216x512.Idx) :
    ∃ t : Fin cfg2.N, (cfg2.win 3).flush t = true ∧ i ∈ ((cfg2.win 3).blk t).view.set := by
  have hi0 : (i 0).val < 9216 := (i 0).isLt
  have hi1 : (i 1).val < 512 := (i 1).isLt
  have hN : cfg2.N = 18 := N_2
  let t : Fin cfg2.N := ⟨(i 0).val / 512, by rw [hN]; omega⟩
  have htv : t.val = (i 0).val / 512 := rfl
  refine ⟨t, flush2_3 t, ?_⟩
  rw [mem_blk2]
  obtain ⟨-, -, -, -, -, e5, e6⟩ := idx_facts2 t
  intro a
  match a with
  | ⟨0, _⟩ =>
    show win2_3.index t (0 : Fin 2) * 512 ≤ (i 0).val ∧ (i 0).val < win2_3.index t (0 : Fin 2) * 512 + 512
    rw [e5, htv]; omega
  | ⟨1, _⟩ =>
    show win2_3.index t (1 : Fin 2) * 512 ≤ (i 1).val ∧ (i 1).val < win2_3.index t (1 : Fin 2) * 512 + 512
    rw [e6]; omega

/-- After the region its output array is the linear layer of the arrays it was entered with. -/
theorem final2 (c : Dev nD) :
    (dat2 V c).arrAt 3 cfg2.N
      = lin (V c main_v18 : S9216x512.Idx → EReal) (V c main_arg3 : S512x512.Idx → EReal) (V c main_arg4 : S512.Idx → EReal) :=
  (dat2 V c).arrAt_eq_of_cover 3 _ (fun t _ => flushed2_eq V c t) cover2

end Cert.Attn

end
-- ==== Proof.BridgeLin.lean ====
/-
  The kernel's two linear layers against the reference's.

  The kernel flattens batch and token into 9216 rows before each linear layer; the reference keeps them apart. A
  reshape keeps the row-major position of every entry, so row `b·2304 + n` of the flat array is entry `(b, n)` of the
  reference's, and entry by entry the two products are the same sum over the 512 input channels, plus the same bias.
-/
import proofs.«135484_j19086834664148_1_alg».proof.Proof.Gen.ReferenceIdeal.Read
import proofs.«135484_j19086834664148_1_alg».proof.Proof.Spec
import Idealize.ShloMosaic.Lib.Pipeline.Value
import Idealize.ShloMosaic.Lib.ValueLayout

noncomputable section

namespace Cert.Attn

open Cert.ReferenceIdeal Cert.ReferenceIdeal.Read Idealize.ShloMosaic Idealize.ShloMosaic.ValueIdx

/-- A `[4, 2304, 512]` array viewed as 9216 flat rows: row `b·2304 + n`, column `k` is entry `(b, n, k)`, because
    both have row-major position `(b·2304 + n)·512 + k`. -/
theorem flat_rows_three (x : S4x2304x512.Idx → EReal) (h : S4x2304x512.ShapeCasts ⟨2, ![9216, 512]⟩)
    (b : Fin 4) (n : Fin 2304) (k : Fin 512) (hr : b.val * 2304 + n.val < 9216) :
    shapeCast ⟨2, ![9216, 512]⟩ x h (ix2 ⟨b.val * 2304 + n.val, hr⟩ k) = x (ix3 b n k) := by
  refine shapeCast_apply x h _ (ix3 b n k) ?_
  rw [Shape.rowMajor_val_two, Shape.rowMajor_val_three]
  rfl

/-- The `[4, 2304, 8, 64]` array of re-assembled heads viewed as 9216 flat rows: row `b·2304 + n`, column `k` is the
    entry the reshape to `[4, 2304, 512]` reads at `(b, n, k)`, because both sit at row-major position
    `(b·2304 + n)·512 + k`, and splitting that position by `2304·512`, `512`, `64` and recombining gives it back. -/
theorem flat_rows_four (z : S4x2304x8x64.Idx → EReal) (h : S4x2304x8x64.ShapeCasts ⟨2, ![9216, 512]⟩)
    (b : Fin 4) (n : Fin 2304) (k : Fin 512) (hr : b.val * 2304 + n.val < 9216) :
    shapeCast ⟨2, ![9216, 512]⟩ z h (ix2 ⟨b.val * 2304 + n.val, hr⟩ k) = z (idx_main_v18 (ix3 b n k)) := by
  refine shapeCast_apply z h _ (idx_main_v18 (ix3 b n k)) ?_
  rw [Shape.rowMajor_val_two, Shape.rowMajor_val_four]
  have h0 : b.val < 4 := b.isLt
  have h1 : n.val < 2304 := n.isLt
  have h2 : k.val < 512 := k.isLt
  show ((((b.val * 2304 + n.val) * 512 + k.val) / 1179648 * 2304 + ((b.val * 2304 + n.val) * 512 + k.val) / 512 % 2304) * 8
        + ((b.val * 2304 + n.val) * 512 + k.val) / 64 % 8) * 64 + ((b.val * 2304 + n.val) * 512 + k.val) % 64
      = (b.val * 2304 + n.val) * 512 + k.val
  omega

/-- The first linear layer over the 9216 flat rows, reshaped to `[4, 2304, 1536]`, is the reference's product plus bias. -/
theorem lin_in_ref (x0 : S4x2304x512.Idx → EReal) (x1 : S1536x512.Idx → EReal) (x2 : S1536.Idx → EReal)
    (h1 : S4x2304x512.ShapeCasts ⟨2, ![9216, 512]⟩) (h2 : (⟨2, ![9216, 1536]⟩ : Shape).ShapeCasts S4x2304x1536) :
    shapeCast S4x2304x1536 (lin (shapeCast ⟨2, ![9216, 512]⟩ x0 h1) x1 x2) h2 = val_main_v3 (F := Ideal) x0 x1 x2 := by
  funext i
  obtain ⟨b, n, f, rfl⟩ : ∃ (b : Fin 4) (n : Fin 2304) (f : Fin 1536), i = ix3 b n f := ⟨i 0, i 1, i 2, eq_ix3 i⟩
  have hr : b.val * 2304 + n.val < 9216 := by have := b.isLt; have := n.isLt; omega
  -- the flat row `b·2304 + n` of the product is entry `(b, n)` of the reshaped result
  refine (shapeCast_apply _ h2 (ix3 b n f) (ix2 ⟨b.val * 2304 + n.val, hr⟩ f) ?_).trans ?_
  · rw [Shape.rowMajor_val_two, Shape.rowMajor_val_three]
    rfl
  rw [lin_ix2, val_main_v3_apply, val_main_v0_apply, val_main_v2_apply, val_main_v1_apply]
  unfold linAt
  refine congrArg₂ (· + ·) (Finset.sum_congr rfl fun k _ => ?_) ?_
  · refine congrArg₂ (· * ·) ((flat_rows_three x0 h1 b n k hr).trans (congrArg x0 ?_)) (congrArg x1 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x2 (funext fun a => Fin.ext (by match a with | ⟨0, _⟩ => rfl))

/-- The last linear layer over the 9216 flat rows of the re-assembled heads, reshaped to `[4, 2304, 512]`, is the
    reference's product plus bias. -/
theorem lin_out_ref (x0 : S4x2304x512.Idx → EReal) (x1 : S1536x512.Idx → EReal) (x2 : S1536.Idx → EReal)
    (x3 : S512x512.Idx → EReal) (x4 : S512.Idx → EReal)
    (h1 : S4x2304x8x64.ShapeCasts ⟨2, ![9216, 512]⟩) (h2 : (⟨2, ![9216, 512]⟩ : Shape).ShapeCasts S4x2304x512) :
    shapeCast S4x2304x512 (lin (shapeCast ⟨2, ![9216, 512]⟩ (val_main_v17 (F := Ideal) x0 x1 x2) h1) x3 x4) h2
      = val_main_v22 (F := Ideal) x0 x1 x2 x3 x4 := by
  funext i
  obtain ⟨b, n, f, rfl⟩ : ∃ (b : Fin 4) (n : Fin 2304) (f : Fin 512), i = ix3 b n f := ⟨i 0, i 1, i 2, eq_ix3 i⟩
  have hr : b.val * 2304 + n.val < 9216 := by have := b.isLt; have := n.isLt; omega
  -- the flat row `b·2304 + n` of the product is entry `(b, n)` of the reshaped result
  refine (shapeCast_apply _ h2 (ix3 b n f) (ix2 ⟨b.val * 2304 + n.val, hr⟩ f) ?_).trans ?_
  · rw [Shape.rowMajor_val_two, Shape.rowMajor_val_three]
    rfl
  rw [lin_ix2, val_main_v22_apply, val_main_v19_apply, val_main_v21_apply, val_main_v20_apply]
  unfold linAt
  refine congrArg₂ (· + ·) (Finset.sum_congr rfl fun k _ => ?_) ?_
  · rw [val_main_v18_apply]
    -- both sides now read the same array of re-assembled heads; only the index matters
    generalize val_main_v17 (F := Ideal) x0 x1 x2 = Z
    refine congrArg₂ (· * ·) ((flat_rows_four Z h1 b n k hr).trans (congrArg Z (congrArg idx_main_v18 ?_))) (congrArg x3 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x4 (funext fun a => Fin.ext (by match a with | ⟨0, _⟩ => rfl))

end Cert.Attn

end
-- ==== Proof.BridgeAtt.lean ====
/-
  The kernel's attention against the reference's.

  The kernel flattens batch and head into 32 heads; the reference keeps them apart. A reshape keeps the row-major
  position of every entry, so head `b·8 + h` of the flat array is `(b, h)` of the reference's. Entry by entry the scores
  are the same sums over the 64 channels, the reference's division of each score by eight is the kernel's product
  with one eighth, and the sums over the 2304 keys are the same sums.
-/
import proofs.«135484_j19086834664148_1_alg».proof.Proof.Gen.ReferenceIdeal.Read
import proofs.«135484_j19086834664148_1_alg».proof.Proof.Spec
import Idealize.ShloMosaic.Lib.Pipeline.Value
import Idealize.ShloMosaic.Lib.ValueLayout

noncomputable section

namespace Cert.Attn

open Cert.ReferenceIdeal Cert.ReferenceIdeal.Read Idealize.ShloMosaic Idealize.ShloMosaic.ValueIdx

/-- A reshape keeps the row-major position of every entry: head `b·8 + h` of the flat array at `(t, e)` is the entry
    `(b, h, t, e)` of the split one, since `((b·8 + h)·2304 + t)·64 + e` is the position of both. -/
theorem flat_read (Q : S4x8x2304x64.Idx → EReal) (hc : S4x8x2304x64.ShapeCasts ⟨3, ![32, 2304, 64]⟩)
    (b : Fin 4) (h : Fin 8) (t : Fin 2304) (e : Fin 64) (hb : b.val * 8 + h.val < 32) :
    shapeCast ⟨3, ![32, 2304, 64]⟩ Q hc (ix3 (⟨b.val * 8 + h.val, hb⟩ : Fin 32) t e) = Q (ix4 b h t e) := by
  refine shapeCast_apply Q hc _ (ix4 b h t e) ?_
  rw [Shape.rowMajor_val_three, Shape.rowMajor_val_four]
  show ((b.val * 8 + h.val) * 2304 + t.val) * 64 + e.val = ((b.val * 8 + h.val) * 2304 + t.val) * 64 + e.val
  rfl

/-- The reference's scaled score of query `t` against key `j` in head `(b, h)`: the sum over the 64 channels, divided by
    eight, which is that sum times one eighth. -/
theorem score_ref (x0 : S4x2304x512.Idx → EReal) (x1 : S1536x512.Idx → EReal) (x2 : S1536.Idx → EReal)
    (b : Fin 4) (h : Fin 8) (t j : Fin 2304) :
    val_main_v15 (F := Ideal) x0 x1 x2 (ix4 b h t j)
      = (∑ e : Fin 64, val_main_v8 (F := Ideal) x0 x1 x2 (ix4 b h t e) * val_main_v10 (F := Ideal) x0 x1 x2 (ix4 b h j e))
          * Ideal.ofBits .f32 0x3E000000#32 := by
  rw [val_main_v15_apply, val_main_v13_apply, val_main_v14_apply, val_main_cst_apply]
  generalize val_main_v8 (F := Ideal) x0 x1 x2 = Q
  generalize val_main_v10 (F := Ideal) x0 x1 x2 = K
  rw [Ideal.hostDivf_def, Ideal.ofBits_def, div_eight]
  refine congrArg (· * Ideal.ofBits .f32 0x3E000000#32) (Finset.sum_congr rfl fun e _ => ?_)
  have el : lidx_main_v13 (ix4 b h t j) e = ix4 b h t e := funext fun a => Fin.ext (by
    match a with | ⟨0, _⟩ => rfl | ⟨1, _⟩ => rfl | ⟨2, _⟩ => rfl | ⟨3, _⟩ => rfl)
  have er : ridx_main_v13 (ix4 b h t j) e = ix4 b h j e := funext fun a => Fin.ext (by
    match a with | ⟨0, _⟩ => rfl | ⟨1, _⟩ => rfl | ⟨2, _⟩ => rfl | ⟨3, _⟩ => rfl)
  rw [el, er]

/-- The attention over the 32 flat heads, reshaped to `[4, 8, 2304, 64]`, is the reference's two batched products around
    its division by eight. -/
theorem att_ref (x0 : S4x2304x512.Idx → EReal) (x1 : S1536x512.Idx → EReal) (x2 : S1536.Idx → EReal)
    (hq hk hv : S4x8x2304x64.ShapeCasts ⟨3, ![32, 2304, 64]⟩) (ho : (⟨3, ![32, 2304, 64]⟩ : Shape).ShapeCasts S4x8x2304x64) :
    shapeCast S4x8x2304x64
        (att (shapeCast ⟨3, ![32, 2304, 64]⟩ (val_main_v8 (F := Ideal) x0 x1 x2) hq)
             (shapeCast ⟨3, ![32, 2304, 64]⟩ (val_main_v10 (F := Ideal) x0 x1 x2) hk)
             (shapeCast ⟨3, ![32, 2304, 64]⟩ (val_main_v12 (F := Ideal) x0 x1 x2) hv)
             (Ideal.ofBits .f32 0x3E000000#32)) ho
      = val_main_v16 (F := Ideal) x0 x1 x2 := by
  funext i
  obtain ⟨b, h, t, d, rfl⟩ : ∃ (b : Fin 4) (h : Fin 8) (t : Fin 2304) (d : Fin 64), i = ix4 b h t d :=
    ⟨i 0, i 1, i 2, i 3, eq_ix4 i⟩
  have hb : b.val * 8 + h.val < 32 := by omega
  rw [val_main_v16_apply]
  refine (shapeCast_apply _ ho (ix4 b h t d) (ix3 (⟨b.val * 8 + h.val, hb⟩ : Fin 32) t d) ?_).trans ?_
  · rw [Shape.rowMajor_val_three, Shape.rowMajor_val_four]
    show ((b.val * 8 + h.val) * 2304 + t.val) * 64 + d.val = ((b.val * 8 + h.val) * 2304 + t.val) * 64 + d.val
    rfl
  rw [att_ix3]
  unfold attAt
  refine Finset.sum_congr rfl fun j _ => ?_
  have el : lidx_main_v16 (ix4 b h t d) j = ix4 b h t j := funext fun a => Fin.ext (by
    match a with | ⟨0, _⟩ => rfl | ⟨1, _⟩ => rfl | ⟨2, _⟩ => rfl | ⟨3, _⟩ => rfl)
  have er : ridx_main_v16 (ix4 b h t d) j = ix4 b h j d := funext fun a => Fin.ext (by
    match a with | ⟨0, _⟩ => rfl | ⟨1, _⟩ => rfl | ⟨2, _⟩ => rfl | ⟨3, _⟩ => rfl)
  rw [el, er, score_ref]
  generalize val_main_v8 (F := Ideal) x0 x1 x2 = Q
  generalize val_main_v10 (F := Ideal) x0 x1 x2 = K
  generalize val_main_v12 (F := Ideal) x0 x1 x2 = V
  rw [flat_read V hv b h j d hb]
  refine congrArg (· * V (ix4 b h j d)) (congrArg (· * Ideal.ofBits .f32 0x3E000000#32) (Finset.sum_congr rfl fun e _ => ?_))
  rw [flat_read Q hq b h t e hb, flat_read K hk b h j e hb]

end Cert.Attn

end
-- ==== Proof.Value.lean ====
/-
  The kernel's result as one function of its five arguments.

  Read backwards from the result: it is the last projection's output viewed as `[4, 2304, 512]`; that output is the
  linear layer of the re-assembled attention output; the attention output is the attention of the queries, keys and
  values; those are the three thirds of the first projection's output, re-laid; and the first projection's output is
  the linear layer of the flattened input. Each kernel step, together with the reshape around it, is one of the
  reference's stages, so the whole is the reference's result term of the same arguments.
-/
import proofs.«135484_j19086834664148_1_alg».proof.Proof.Glue
import proofs.«135484_j19086834664148_1_alg».proof.Proof.Region0
import proofs.«135484_j19086834664148_1_alg».proof.Proof.Region1
import proofs.«135484_j19086834664148_1_alg».proof.Proof.Region2
import proofs.«135484_j19086834664148_1_alg».proof.Proof.BridgeLin
import proofs.«135484_j19086834664148_1_alg».proof.Proof.BridgeAtt

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result array after the run is the reference's result term of the launch contents of the five arguments. -/
theorem kernel_value (c : Dev nD) :
    (W7 m ρ c (Proc.devRef .tc main_v20) : S4x2304x512.Idx → EReal)
      = Cert.ReferenceIdeal.Read.val_main_v22 (F := Ideal)
          (m ((c : Thread nD τ).loc main_arg0)) (m ((c : Thread nD τ).loc main_arg1)) (m ((c : Thread nD τ).loc main_arg2))
          (m ((c : Thread nD τ).loc main_arg3)) (m ((c : Thread nD τ).loc main_arg4)) := by
  rw [result_eq, show W6 m ρ c (Proc.devRef .tc main_v19) = (dat2 (V5 m ρ) c).arrAt 3 cfg2.N from W6_arr m ρ c 3,
    final2, entry2_x, entry2_w, entry2_b,
    show W4 m ρ c (Proc.devRef .tc main_v15) = (dat1 (V3 m ρ) c).arrAt 3 cfg1.N from W4_arr m ρ c 3,
    final1, entry1_q, entry1_k, entry1_v,
    show W2 m ρ c (Proc.devRef .tc main_v1) = (dat0 (V1 m ρ) c).arrAt 3 cfg0.N from W2_arr m ρ c 3,
    final0, entry0_x, entry0_w, entry0_b]
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  -- the first projection with the reshapes around it is the reference's product plus bias
  rw [lin_in_ref]
  -- its three thirds, re-laid, are the reference's queries, keys and values
  show shapeCast S4x2304x512 (lin (shapeCast S9216x512 (transpose S4x2304x8x64 [0, 2, 1, 3]
      (shapeCast S4x8x2304x64 (att
        (shapeCast S32x2304x64 (Cert.ReferenceIdeal.Read.val_main_v8 (F := Ideal) x0 x1 x2) _)
        (shapeCast S32x2304x64 (Cert.ReferenceIdeal.Read.val_main_v10 (F := Ideal) x0 x1 x2) _)
        (shapeCast S32x2304x64 (Cert.ReferenceIdeal.Read.val_main_v12 (F := Ideal) x0 x1 x2) _)
        (Ideal.ofBits .f32 0x3E000000#32)) _) _) _) x3 x4) _ = _
  -- the attention with the reshapes around it is the reference's attention
  rw [att_ref]
  -- and the last projection with the reshapes around it is the reference's last product plus bias
  exact lin_out_ref x0 x1 x2 x3 x4 _ _

end Cert.Attn

end
-- ==== Proof.lean ====
/-
  A multi-head attention block without softmax, in three kernels, against its plain description.

  The network: `y = x · w_inᵀ + b_in` over `[4, 2304, 512]` tokens, giving 1536 channels; `y` is cut in three along the
  TOKEN axis and each third is re-read as 2304 tokens of 8 heads of 64 channels, giving queries, keys and values; per
  head the scores `q · kᵀ` are scaled by one eighth and, with no softmax, multiplied into the values; the heads are put
  back side by side and `o · w_outᵀ + b_out` is returned. The kernel does the two linear layers over 9216 flattened rows
  in blocks of 512 rows, and the attention over 32 flattened heads in blocks of 768 queries against all 2304 keys, with
  the reshapes, slices and transposes between them on the host; it multiplies the scores by `0.125` where the reference
  divides them by `8.0`.

  Over the extended reals the two are one function. A change of float format is the identity; each kernel product runs
  into a zero accumulator over its whole contracted axis, so it is the plain sum the reference's product is; a reshape
  keeps every entry's row-major position, so flat row `b·2304 + n` is entry `(b, n)` and flat head `b·8 + h` is `(b, h)`;
  the blocks of each kernel cover its output and each is the corresponding block of one whole-array function; and
  dividing by eight is multiplying by one eighth on every extended real, the infinite ones included. No step
  distributes a product over a sum or cancels, so the inputs' finiteness is not used.

  The three frames are the generated ones (the reference's is its generated run with the result dropped), no rewrite
  was applied in idealizing the kernel, and the value claim sets the kernel's run, with its result array named and read
  back through the three regions, beside the reference's run, both at the reference's result term.
-/
import proofs.«135484_j19086834664148_1_alg».proof.Defs
import proofs.«135484_j19086834664148_1_alg».proof.Proof.Gen.Kernel
import proofs.«135484_j19086834664148_1_alg».proof.Proof.Gen.Kernel.Skeleton
import proofs.«135484_j19086834664148_1_alg».proof.Proof.Gen.Kernel.Launch
import proofs.«135484_j19086834664148_1_alg».proof.Proof.Gen.Kernel.Points
import proofs.«135484_j19086834664148_1_alg».proof.Proof.Gen.Kernel.Frame
import proofs.«135484_j19086834664148_1_alg».proof.Proof.Gen.KernelIdeal
import proofs.«135484_j19086834664148_1_alg».proof.Proof.Gen.KernelIdeal.Skeleton
import proofs.«135484_j19086834664148_1_alg».proof.Proof.Gen.KernelIdeal.Launch
import proofs.«135484_j19086834664148_1_alg».proof.Proof.Gen.KernelIdeal.Points
import proofs.«135484_j19086834664148_1_alg».proof.Proof.Gen.KernelIdeal.Frame
import proofs.«135484_j19086834664148_1_alg».proof.Proof.Gen.ReferenceIdeal
import proofs.«135484_j19086834664148_1_alg».proof.Proof.Gen.Pre_finite_inputs
import proofs.«135484_j19086834664148_1_alg».proof.Proof.Gen.ReferenceIdeal.Run
import proofs.«135484_j19086834664148_1_alg».proof.Proof.Gen.ReferenceIdeal.Read
import proofs.«135484_j19086834664148_1_alg».proof.Proof.KernelRun
import proofs.«135484_j19086834664148_1_alg».proof.Proof.Value
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories that agree on the five arguments both programs end with the reference's result term of those
    arguments in their result array: the kernel by reading its result back through its three regions, the reference by
    its run. -/
theorem algebraic : Cert.algebraic_KernelIdeal_ReferenceIdeal := by
  intro m ρ m' ρ' _ hagree
  have hk := (θ_run Cert.KernelIdeal.defs _ _).mono
    (fun r h c => (⟨(h c).1.trans (Cert.Attn.kernel_value m ρ c), (h c).2⟩ : _ ∧ _))
    (Cert.KernelIdeal.Named.run_named (F := Ideal) m ρ)
  refine ⟨_, hk, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.Read.val_main_v22_eq _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
